-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256 : Shape := ⟨1, ![256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S32x256x56x56 .f32) (main_arg1 : FVec F S256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Kernel.lean ====
abbrev S32x256x56x56 : Shape := ⟨4, ![32, 256, 56, 56]⟩
abbrev S256 : Shape := ⟨1, ![256]⟩
abbrev S8192x3136 : Shape := ⟨2, ![8192, 3136]⟩
abbrev S1x256 : Shape := ⟨2, ![1, 256]⟩
abbrev S32x256 : Shape := ⟨2, ![32, 256]⟩
abbrev S8192 : Shape := ⟨1, ![8192]⟩
abbrev S8192x1 : Shape := ⟨2, ![8192, 1]⟩
abbrev S512x3136 : Shape := ⟨2, ![512, 3136]⟩
abbrev S512x1 : Shape := ⟨2, ![512, 1]⟩

abbrev nBuf : Space → Nat
  | .hbm => 9
  | .vmem => 6
  | .smem => 0
  | _ => 0

abbrev bufTy : (tb : Table) → Fin (tcTables nBuf tb) → BufTy
  | .hbm, ⟨0, _⟩ => ⟨S32x256x56x56, .f32⟩
  | .hbm, ⟨1, _⟩ => ⟨S256, .f32⟩
  | .hbm, ⟨2, _⟩ => ⟨S8192x3136, .f32⟩
  | .hbm, ⟨3, _⟩ => ⟨S1x256, .f32⟩
  | .hbm, ⟨4, _⟩ => ⟨S32x256, .f32⟩
  | .hbm, ⟨5, _⟩ => ⟨S8192, .f32⟩
  | .hbm, ⟨6, _⟩ => ⟨S8192x1, .f32⟩
  | .hbm, ⟨7, _⟩ => ⟨S8192x3136, .f32⟩
  | .hbm, ⟨8, _⟩ => ⟨S32x256x56x56, .f32⟩
  | .local _ .vmem, ⟨0, _⟩ => ⟨S512x3136, .f32⟩
  | .local _ .vmem, ⟨1, _⟩ => ⟨S512x3136, .f32⟩
  | .local _ .vmem, ⟨2, _⟩ => ⟨S512x1, .f32⟩
  | .local _ .vmem, ⟨3, _⟩ => ⟨S512x1, .f32⟩
  | .local _ .vmem, ⟨4, _⟩ => ⟨S512x3136, .f32⟩
  | .local _ .vmem, ⟨5, _⟩ => ⟨S512x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3136 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x256x56x56_S8192x3136 : S32x256x56x56.ShapeCasts S8192x3136
  shapeCasts_S256_S1x256 : S256.ShapeCasts S1x256
  bcast_S1x256_S32x256_0_1 : S1x256.BroadcastsInDim S32x256 (![0, 1] : Fin 2 → Fin S32x256.rank)
  shapeCasts_S32x256_S8192 : S32x256.ShapeCasts S8192
  shapeCasts_S8192_S8192x1 : S8192.ShapeCasts S8192x1
  inb_S512x3136_S512x3136_0_0 : ∀ a, (![0, 0] : Fin 2 → Nat) a + S512x3136.size a ≤ S512x3136.size a
  h_S512x3136 : 0 < S512x3136.numel
  shapeCasts_S512x3136_S512x3136 : S512x3136.ShapeCasts S512x3136
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x3136 : S512x1.Broadcasts S512x3136
  shapeCasts_S8192x3136_S32x256x56x56 : S8192x3136.ShapeCasts S32x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3136.size a ≤ S8192x3136.size a
  hwx0_0 : ∀ i : grid0.Coords, EltTy.bits .f32 = 32 ∨ (Rect.block (s := S8192x3136) S512x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3136.size a ≤ S8192x3136.size a
  hwx0_2 : ∀ i : grid0.Coords, EltTy.bits .f32 = 32 ∨ (Rect.block (s := S8192x3136) S512x3136.size (cc0_transform_2 i) (hinb0_2 i)).WholeWords (EltTy.packing .f32)

variable [Facts₀]

abbrev win0_0 : Pipeline.Window sig grid0 :=
  Pipeline.Window.ofSpec (Memref.whole main_v0) S512x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x3136.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S256 : Shape := ⟨1, ![256]⟩
abbrev S1x256x1x1 : Shape := ⟨4, ![1, 256, 1, 1]⟩

abbrev nBuf : Space → Nat
  | .hbm => 5
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S256, .f32⟩
  | .hbm, ⟨2, _⟩ => ⟨S1x256x1x1, .f32⟩
  | .hbm, ⟨3, _⟩ => ⟨S32x256x56x56, .f32⟩
  | .hbm, ⟨4, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S256_S1x256x1x1 : S256.ShapeCasts S1x256x1x1
  bcast_S1x256x1x1_S32x256x56x56_0_1_2_3 : S1x256x1x1.BroadcastsInDim S32x256x56x56 (![0, 1, 2, 3] : Fin 4 → Fin S32x256x56x56.rank)

variable [Facts₀]

class Facts : Prop extends Facts₀ where

variable [Facts]
-- ==== Proof.Spec.lean ====
/-
  The function both programs compute, and the index bookkeeping that relates its two layouts.

  The result is the array x : [32, 256, 56, 56] with every entry multiplied by the entry of the vector
  s : [256] that the entry's second coordinate (its channel) names: G x s (n, c, h, w) = x (n, c, h, w) * s c.
  One program computes it in that layout.  The other views x as 8192 rows of 3136 entries (row n * 256 + c
  holds the entries of image n, channel c), builds the column of per-row factors by repeating s 32 times
  (row n * 256 + c gets s c), multiplies every row by its factor, and views the rows as [32, 256, 56, 56]
  again.  Both layouts are row-major re-readings of one sequence of entries, so the entry at (n, c, h, w)
  sits in row n * 256 + c at column h * 56 + w, and the factor of that row is s c.  One multiplication with
  the same two operands on both sides: nothing is asked of the float instance.
-/
import Idealize.ShloMosaic.Lib.ValueIdx
import Idealize.ShloMosaic.Lib.Pipeline.Value

noncomputable section

namespace ChannelScale

open Idealize.ShloMosaic Idealize.ShloMosaic.ValueIdx

variable {F : FTy → Type} [FloatOps F]

/-- The array's shape, the vector's, and the shapes the row layout passes through. -/
abbrev Sx : Shape := ⟨4, ![32, 256, 56, 56]⟩
abbrev Ss : Shape := ⟨1, ![256]⟩
abbrev Srows : Shape := ⟨2, ![8192, 3136]⟩
abbrev Scol : Shape := ⟨2, ![8192, 1]⟩
abbrev Sflat : Shape := ⟨1, ![8192]⟩
abbrev Srep : Shape := ⟨2, ![32, 256]⟩
abbrev Sone : Shape := ⟨2, ![1, 256]⟩

/-- Every entry times its channel's factor. -/
def G (x : Vec F Sx .f32) (s : Vec F Ss .f32) : Vec F Sx .f32 :=
  fun i => FloatOps.mulf (x i) (s (ix1 (n := 256) (i 1)))

/-- Every row times its row's factor: entry (r, q) of the rows times entry (r, 0) of the column. -/
def rowScale (a : Vec F Srows .f32) (col : Vec F Scol .f32) : Vec F Srows .f32 :=
  fun i => FloatOps.mulf (a i) (col (ix2 (n0 := 8192) (n1 := 1) (i 0) 0))

/-- The row of image n, channel c. -/
def rowOf (n : Fin 32) (c : Fin 256) : Fin 8192 := ⟨n.val * 256 + c.val, by have := n.isLt; have := c.isLt; omega⟩
/-- The column of position (h, w) inside a row. -/
def colOf (h : Fin 56) (w : Fin 56) : Fin 3136 := ⟨h.val * 56 + w.val, by have := h.isLt; have := w.isLt; omega⟩

/-- The row view of the array holds entry (n, c, h, w) at row n * 256 + c, column h * 56 + w. -/
theorem rows_apply (x : Vec F Sx .f32) (h0 : Sx.ShapeCasts Srows) (n : Fin 32) (c : Fin 256) (h : Fin 56) (w : Fin 56) :
    shapeCast Srows x h0 (ix2 (rowOf n c) (colOf h w)) = x (ix4 n c h w) := by
  refine shapeCast_apply x h0 _ _ ?_
  rw [Shape.rowMajor_val_two, Shape.rowMajor_val_four]
  show (((n.val * 256 + c.val) * 56 + h.val) * 56 + w.val) = (n.val * 256 + c.val) * 3136 + (h.val * 56 + w.val)
  omega

/-- The column of factors — the vector as one row, repeated 32 times, flattened, stood up as a column — holds
    s c at row n * 256 + c. -/
theorem col_apply (s : Vec F Ss .f32) (h1 : Ss.ShapeCasts Sone) (h2 : Sone.BroadcastsInDim Srep (![0, 1] : Fin 2 → Fin Srep.rank))
    (h3 : Srep.ShapeCasts Sflat) (h4 : Sflat.ShapeCasts Scol) (n : Fin 32) (c : Fin 256) :
    shapeCast Scol (shapeCast Sflat (broadcastInDim Srep ![0, 1] h2 (shapeCast Sone s h1)) h3) h4 (ix2 (rowOf n c) 0)
      = s (ix1 c) := by
  refine (shapeCast_apply _ h4 _ (ix1 (rowOf n c)) ?_).trans ?_
  · rw [Shape.rowMajor_val_one, Shape.rowMajor_val_two]
    show (n.val * 256 + c.val) = (n.val * 256 + c.val) * 1 + 0
    omega
  refine (shapeCast_apply _ h3 _ (ix2 n c) ?_).trans ?_
  · rw [Shape.rowMajor_val_one, Shape.rowMajor_val_two]
    show n.val * 256 + c.val = n.val * 256 + c.val
    rfl
  refine (broadcastInDim_apply _ h2 _ (ix2 n c) (ix2 (0 : Fin 1) c) (fun a => match a with
    | ⟨0, _⟩ => by show (0 : Nat) = if (1 : Nat) = 1 then 0 else n.val; rw [if_pos rfl]
    | ⟨1, _⟩ => by show c.val = if (256 : Nat) = 1 then 0 else c.val; rw [if_neg (by decide)])).trans ?_
  refine shapeCast_apply s h1 _ (ix1 c) ?_
  rw [Shape.rowMajor_val_one, Shape.rowMajor_val_two]
  show c.val = 0 * 256 + c.val
  omega

/-- Scaling the rows and reading them in the array's layout is scaling every entry by its channel's factor. -/
theorem rows_eq (x : Vec F Sx .f32) (s : Vec F Ss .f32) (h0 : Sx.ShapeCasts Srows) (h1 : Ss.ShapeCasts Sone)
    (h2 : Sone.BroadcastsInDim Srep (![0, 1] : Fin 2 → Fin Srep.rank)) (h3 : Srep.ShapeCasts Sflat) (h4 : Sflat.ShapeCasts Scol)
    (h5 : Srows.ShapeCasts Sx) :
    shapeCast Sx (rowScale (shapeCast Srows x h0)
        (shapeCast Scol (shapeCast Sflat (broadcastInDim Srep ![0, 1] h2 (shapeCast Sone s h1)) h3) h4)) h5
      = G x s := by
  funext i
  obtain ⟨n, c, h, w, rfl⟩ : ∃ (n : Fin 32) (c : Fin 256) (h : Fin 56) (w : Fin 56), i = ix4 n c h w :=
    ⟨i 0, i 1, i 2, i 3, eq_ix4 i⟩
  refine (shapeCast_apply _ h5 _ (ix2 (rowOf n c) (colOf h w)) ?_).trans ?_
  · rw [Shape.rowMajor_val_two, Shape.rowMajor_val_four]
    show (n.val * 256 + c.val) * 3136 + (h.val * 56 + w.val) = (((n.val * 256 + c.val) * 56 + h.val) * 56 + w.val)
    omega
  show FloatOps.mulf (shapeCast Srows x h0 (ix2 (rowOf n c) (colOf h w))) (shapeCast Scol _ h4 (ix2 (rowOf n c) 0))
    = FloatOps.mulf (x (ix4 n c h w)) (s (ix1 c))
  rw [rows_apply x h0 n c h w, col_apply s h1 h2 h3 h4 n c]

end ChannelScale

end
-- ==== Proof.KernelPoint.lean ====
/-
  What the kernel's region leaves in its output array.

  The region walks 16 grid points; point t reads rows 512 t .. 512 t + 511 of the [8192, 3136] row array and
  the same rows of the [8192, 1] column of factors, multiplies every row by its factor (the factor spread
  over the 3136 columns of the row), and writes the product back to the same rows of the output.  So what
  point t writes back is block t of ONE function of the two arrays, `rowScale`; the 16 blocks tile the 8192
  rows, so the output array ends holding `rowScale` of the two arrays, whole.
-/
import proofs.«114801_j58600533786808_1_alg».proof.Proof.Gen.KernelIdeal.Frame
import proofs.«114801_j58600533786808_1_alg».proof.Proof.Spec
import Idealize.ShloMosaic.Lib.Pipeline.Value
import Idealize.ShloMosaic.Lib.ValueIdx

set_option maxRecDepth 16384

noncomputable section

namespace Cert.KernelIdeal.RowValue

open Cert.KernelIdeal Cert.KernelIdeal.Gen Idealize.ShloMosaic Idealize.ShloMosaic.TcCoe Idealize.SL.Sem
open Idealize.ShloMosaic.ValueIdx ChannelScale
open Idealize.ShloMosaic.Pipeline (Dat Cfg Window)

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

/-- The body's product at entry (p, q) of a block: the row block's entry there times the factor block's
    entry (p, 0) — the two same-shape casts are the identity and the lane broadcast reads column 0. -/
theorem pay_apply (x0 : Vec F S512x3136 .f32) (x1 : Vec F S512x1 .f32) (j : S512x3136.Idx) :
    k0_pay1 x0 x1 j = FloatOps.mulf (x0 j) (x1 (ix2 (n0 := 512) (n1 := 1) (j 0) 0)) := by
  unfold k0_pay1
  show FloatOps.mulf (shapeCast S512x3136 x0 shapeCasts_S512x3136_S512x3136 j)
      (broadcastTo S512x3136 (shapeCast S512x1 (shapeCast S512x1 x1 shapeCasts_S512x1_S512x1) shapeCasts_S512x1_S512x1)
        broadcasts_S512x1_S512x3136 j) = _
  rw [shapeCast_self, shapeCast_self, shapeCast_self]
  rw [broadcastTo_apply x1 broadcasts_S512x1_S512x3136 j (ix2 (n0 := 512) (n1 := 1) (j 0) 0) (fun a => match a with
    | ⟨0, _⟩ => by show (j 0).val = if (512 : Nat) = 1 then 0 else (j 0).val; rw [if_neg (by decide)]
    | ⟨1, _⟩ => by show (0 : Nat) = if (1 : Nat) = 1 then 0 else (j 1).val; rw [if_pos rfl])]

/-- The printed index maps over the grid: the three windows move together along the rows, one block per
    point, and none moves along the columns. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (1 : Fin 2) = 0
    ∧ win0_2.index t (0 : Fin 2) ≤ 15 :=
  (by decide +kernel : ∀ t : Fin grid0.N, _)

/-- Every one of the 16 row blocks is some point's. -/
theorem idx_onto : ∀ q : Fin 16, ∃ t : Fin cfg0.N, win0_2.index t = ![q.val, 0] :=
  (by decide +kernel : ∀ q : Fin 16, ∃ t : Fin grid0.N, win0_2.index t = ![q.val, 0])

/-- What point t writes back is block t of `rowScale` of the row array and the column of factors as the
    region finds them. -/
theorem flushed_eq (c : Dev nD) (t : Fin cfg0.N) :
    (dats m 0 c).flushed 2 t
      = ((cfg0.win 2).blk t).view.read (Elt F) (rowScale (V m c main_v0) (V m c main_v4)) := by
  show (cfg0.win 2).cut (grid0.coords t) ((dats m 0 c).after 2 t) = _
  rw [after0_2]
  unfold out0_2
  rw [View.canon_unit_zero origin]
  simp only [View.ld_unit_zero (S := S512x3136) origin, View.ld_unit_zero (S := S512x1) origin]
  obtain ⟨e0, e1, e2, e3, e4, e5⟩ := idx_facts t
  funext j
  refine (pay_apply (iblk m c 0 t) (iblk m c 1 t) j).trans ?_
  show FloatOps.mulf (V m c main_v0 (((cfg0.win 0).blk t).view.emb j))
      (V m c main_v4 (((cfg0.win 1).blk t).view.emb (ix2 (n0 := 512) (n1 := 1) (j 0) 0)))
    = FloatOps.mulf (V m c main_v0 (((cfg0.win 2).blk t).view.emb j))
      (V m c main_v4 (ix2 (n0 := 8192) (n1 := 1) ((((cfg0.win 2).blk t).view.emb j) 0) 0))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 3136 + 1 * (j 1).val = win0_2.index t (1 : Fin 2) * 3136 + 1 * (j 1).val; omega
  have h1 : ((cfg0.win 1).blk t).view.emb (ix2 (n0 := 512) (n1 := 1) (j 0) 0)
      = ix2 (n0 := 8192) (n1 := 1) ((((cfg0.win 2).blk t).view.emb j) 0) 0 := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 1 + 1 * 0 = 0; omega
  rw [h0, h1]

/-- An index of the output array is in point t's block iff each coordinate is in the block's range. -/
theorem mem_blk (t : Fin cfg0.N) (i : S8192x3136.Idx) :
    i ∈ ((cfg0.win 2).blk t).view.set ↔ ∀ a : Fin 2, win0_2.index t a * S512x3136.size a ≤ (i a).val
      ∧ (i a).val < win0_2.index t a * S512x3136.size a + S512x3136.size a := by
  show i ∈ ((View.whole main_v5).slice (win0_2.rect t)).set ↔ _
  rw [View.set_slice_whole, Rect.mem_set_unit]
  exact Iff.rfl

/-- Row r lies in the block of the point whose block index is r / 512: the blocks cover the array. -/
theorem covered (i : S8192x3136.Idx) :
    ∃ t : Fin cfg0.N, (cfg0.win 2).flush t = true ∧ i ∈ ((cfg0.win 2).blk t).view.set := by
  have hi0 : (i 0).val < 8192 := (i 0).isLt
  have hi1 : (i 1).val < 3136 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3136 ≤ (i 1).val ∧ (i 1).val < win0_2.index t (1 : Fin 2) * 3136 + 3136; omega

/-- The output array after the region: every row of the row array times its factor. -/
theorem final (c : Dev nD) :
    (dats m 0 c).arrAt 2 cfg0.N = rowScale (V m c main_v0) (V m c main_v4) :=
  (dats m 0 c).arrAt_eq_of_cover 2 (rowScale (V m c main_v0) (V m c main_v4)) (fun t _ => flushed_eq m c t) covered

end Cert.KernelIdeal.RowValue

end
-- ==== Proof.HostSide.lean ====
/-
  The kernel's run, read: the result array ends at every entry of the first argument times its channel's
  factor from the second.

  Before the region the program views the first argument as 8192 rows of 3136 and builds the column of
  per-row factors from the second (one row, repeated 32 times, flattened, stood up as a column); the region
  multiplies every row by its factor; after it the program views the rows as [32, 256, 56, 56] again.  The
  region's output is `rowScale` of the two arrays it found (the module on the region), those two arrays are
  the host operations' terms of the arguments, and the specification's index lemma joins the three.
-/
import proofs.«114801_j58600533786808_1_alg».proof.Proof.Gen.KernelIdeal.Frame
import proofs.«114801_j58600533786808_1_alg».proof.Proof.KernelPoint
import proofs.«114801_j58600533786808_1_alg».proof.Proof.Spec
import Idealize.ShloMosaic.Lib.StableHlo.Run
import Idealize.ShloMosaic.Lib.Pipeline.FrameSuffix

set_option maxRecDepth 16384

noncomputable section

namespace Cert.KernelIdeal.RowValue

open Cert.KernelIdeal Cert.KernelIdeal.Gen Idealize.ShloMosaic Idealize.ShloMosaic.TcCoe Idealize.SL.Sem
open Idealize.ShloMosaic.StableHlo
open Idealize.ShloMosaic.ValueIdx ChannelScale
open Idealize.ShloMosaic.Pipeline (Dat Cfg Window)

variable {F : FTy → Type} [FloatOps F]
variable (m : (ℓ : Loc nD τ sig) → Buf (Elt F) ℓ) (ρ : Dev nD → PrngReg)

/-- The row array the region finds is the first argument viewed as 8192 rows of 3136. -/
theorem V_rows (c : Dev nD) :
    (V m c main_v0 : S8192x3136.Idx → Elt F .f32)
      = shapeCast S8192x3136 (m ((c : Thread nD τ).loc main_arg0)) shapeCasts_S32x256x56x56_S8192x3136 := by
  show StableHlo.after hostOps0 (fun b => m (c, b)) (Proc.devRef .tc main_v0) = _
  after_results
  rfl

/-- The column of factors the region finds is the second argument as one row, repeated 32 times, flattened,
    stood up as a column. -/
theorem V_col (c : Dev nD) :
    (V m c main_v4 : S8192x1.Idx → Elt F .f32)
      = shapeCast S8192x1 (shapeCast S8192 (broadcastInDim S32x256 ![0, 1] bcast_S1x256_S32x256_0_1
          (shapeCast S1x256 (m ((c : Thread nD τ).loc main_arg1)) shapeCasts_S256_S1x256)) shapeCasts_S32x256_S8192)
          shapeCasts_S8192_S8192x1 := by
  show StableHlo.after hostOps0 (fun b => m (c, b)) (Proc.devRef .tc main_v4) = _
  after_results
  rfl

/-- The result buffer after the lines that follow the region: the region's output array viewed as
    [32, 256, 56, 56]. -/
theorem tail_eq (c : Dev nD) :
    (Pipeline.afterTail₀ cfgs (dats m) 0 (V0 m) [hostOps1] c main_v6 : S32x256x56x56.Idx → Elt F .f32)
      = shapeCast S32x256x56x56 ((dats m 0 c).arrAt 2 cfg0.N) shapeCasts_S8192x3136_S32x256x56x56 := by
  unfold Pipeline.afterTail₀
  show StableHlo.after hostOps1 _ (Proc.devRef .tc main_v6) = _
  after_results
  rw [Pipeline.withArrays_arr spec0 launch0.win.arr_inj c _ _ 2]
  rfl

/-- The result buffer is every entry of the first argument times its channel's factor. -/
theorem result_eq (c : Dev nD) :
    (Pipeline.afterTail₀ cfgs (dats m) 0 (V0 m) [hostOps1] c main_v6 : S32x256x56x56.Idx → Elt F .f32)
      = G (m ((c : Thread nD τ).loc main_arg0)) (m ((c : Thread nD τ).loc main_arg1)) := by
  rw [tail_eq, final, V_rows, V_col]
  exact rows_eq _ _ _ _ _ _ _ _

/-- The frame run re-posted: the result at the specification of the arguments, the arguments unchanged. -/
theorem run : θ_run defs (onTc (τ := τ) (main (F := F))) ⟨m, fun _ => 0, ρ⟩ fun r => ∀ c : Dev nD,
      r.2.mem ((c : Thread nD τ).loc main_v6) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.RowValue

end
-- ==== Proof.RefSide.lean ====
/-
  The reference is the specification: it stands the vector up as [1, 256, 1, 1], spreads it over
  [32, 256, 56, 56] and multiplies entry by entry, so at (n, c, h, w) it reads the vector at c.
-/
import proofs.«114801_j58600533786808_1_alg».proof.Proof.Gen.ReferenceIdeal.Read
import proofs.«114801_j58600533786808_1_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.ValueIdx ChannelScale

variable {F : FTy → Type} [FloatOps F]

/-- The reference's product, stage by stage at an index, is every entry times its channel's factor. -/
theorem ref_eq (x0 : Vec F S32x256x56x56 .f32) (x1 : Vec F S256 .f32) :
    Read.val_main_v2 (F := F) x0 x1 = G x0 x1 := by
  funext i
  rw [Read.val_main_v2_apply, Read.val_main_v1_apply, Read.val_main_v0_apply]
  show FloatOps.mulf (x0 i) (x1 (Read.idx_main_v0 (Read.idx_main_v1 i))) = FloatOps.mulf (x0 i) (x1 (ix1 (n := 256) (i 1)))
  refine congrArg (fun k => FloatOps.mulf (x0 i) (x1 k)) ?_
  funext a
  match a with
  | ⟨0, _⟩ => exact Fin.ext (by show ((0 * 256 + (i 1).val) * 1 + 0) * 1 + 0 = (i 1).val; omega)

end Cert.ReferenceIdeal.RefValue

end
-- ==== Proof.lean ====
/-
  A per-channel scale of a [32, 256, 56, 56] array: the kernel and the reference compute the same product.

  The reference multiplies x (n, c, h, w) by s c directly: it stands the vector s up as [1, 256, 1, 1], spreads
  it over the array's shape and multiplies entry by entry.  The kernel does the same multiplication in
  another layout: it views x as 8192 rows of 3136 entries (row n * 256 + c is image n, channel c), repeats s
  32 times to get one factor per row, multiplies the rows 512 at a time over 16 grid points (each factor
  spread along its row), and views the rows as [32, 256, 56, 56] again.  Both layouts are row-major readings
  of one sequence of entries, so entry (n, c, h, w) sits in row n * 256 + c at column h * 56 + w, and that
  row's factor is s c.  At every index both sides are ONE multiplication of the same two operands, so they
  are equal at any float instance; no law of the extended reals and no finiteness of the inputs is used.

  The modules: the specification and its index lemma (Spec); the region's output array as one function of
  the two arrays it finds, from the block each point writes back and the blocks' cover (KernelPoint); the
  host operations around the region and the kernel's run re-posted at the specification (HostSide); the
  reference's stages read at an index (RefSide).  The frames are the programs' runs with the results
  dropped; the idealization rewrote nothing, so there is nothing to preserve.
-/
import proofs.«114801_j58600533786808_1_alg».proof.Defs
import proofs.«114801_j58600533786808_1_alg».proof.Proof.Gen.Kernel
import proofs.«114801_j58600533786808_1_alg».proof.Proof.Gen.Kernel.Skeleton
import proofs.«114801_j58600533786808_1_alg».proof.Proof.Gen.Kernel.Launch
import proofs.«114801_j58600533786808_1_alg».proof.Proof.Gen.Kernel.Points
import proofs.«114801_j58600533786808_1_alg».proof.Proof.Gen.Kernel.Frame
import proofs.«114801_j58600533786808_1_alg».proof.Proof.Gen.KernelIdeal
import proofs.«114801_j58600533786808_1_alg».proof.Proof.Gen.KernelIdeal.Skeleton
import proofs.«114801_j58600533786808_1_alg».proof.Proof.Gen.KernelIdeal.Launch
import proofs.«114801_j58600533786808_1_alg».proof.Proof.Gen.KernelIdeal.Points
import proofs.«114801_j58600533786808_1_alg».proof.Proof.Gen.KernelIdeal.Frame
import proofs.«114801_j58600533786808_1_alg».proof.Proof.Gen.ReferenceIdeal
import proofs.«114801_j58600533786808_1_alg».proof.Proof.Gen.ReferenceIdeal.Run
import proofs.«114801_j58600533786808_1_alg».proof.Proof.Gen.ReferenceIdeal.Read
import proofs.«114801_j58600533786808_1_alg».proof.Proof.Gen.Pre_finite_inputs
import proofs.«114801_j58600533786808_1_alg».proof.Proof.Spec
import proofs.«114801_j58600533786808_1_alg».proof.Proof.KernelPoint
import proofs.«114801_j58600533786808_1_alg».proof.Proof.HostSide
import proofs.«114801_j58600533786808_1_alg».proof.Proof.RefSide
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on x and s, both programs end with x (n, c, h, w) * s c at every index. -/
theorem algebraic : Cert.algebraic_KernelIdeal_ReferenceIdeal := by
  intro m ρ m' ρ' _ hagree
  refine ⟨_, Cert.KernelIdeal.RowValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v2_eq _ _).trans (Cert.ReferenceIdeal.RefValue.ref_eq _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
